-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x32x64 : Shape := ⟨3, ![4096, 32, 64]⟩
abbrev S131072 : Shape := ⟨1, ![131072]⟩
abbrev S65536 : Shape := ⟨1, ![65536]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S131072 : S_.BroadcastsInDim S131072 (![] : Fin 0 → Fin S131072.rank)
  reducesTo_S131072_S_d0 : S131072.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S4096x32x64 32) (main_arg2 : FVec F S131072 .f32) (main_arg3 : IVec S65536 32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S131072 .f32 := Host.absf main_arg2
  let main_cst_0 : FVec F S_ .f32 := constant S_ .f32 0x7F800000#32
  let main_v5 : FVec F S131072 .f32 := broadcastInDim S131072 ![] bcast_S_S131072 main_cst_0
  let main_v6 : IVec S131072 1 := cmpf .olt main_v4 main_v5
  let main_c_1 : IVec S_ 1 := constantI S_ 1 1#1
  let main_v7 : IVec S_ 1 := (fun x v => Host.reduce IntOp.andi x v reducesTo_S131072_S_d0 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x32x64 : Shape := ⟨3, ![4096, 32, 64]⟩
abbrev S131072 : Shape := ⟨1, ![131072]⟩
abbrev S65536 : Shape := ⟨1, ![65536]⟩
abbrev S4096 : Shape := ⟨1, ![4096]⟩
abbrev S4096x32 : Shape := ⟨2, ![4096, 32]⟩
abbrev S_ : Shape := ⟨0, ![]⟩
abbrev S65536x1 : Shape := ⟨2, ![65536, 1]⟩
abbrev S65536x2 : Shape := ⟨2, ![65536, 2]⟩
abbrev S1x4096 : Shape := ⟨2, ![1, 4096]⟩
abbrev S8192x32x64x2 : Shape := ⟨4, ![8192, 32, 64, 2]⟩
abbrev S8192x32x2x64 : Shape := ⟨4, ![8192, 32, 2, 64]⟩
abbrev S8192x4096 : Shape := ⟨2, ![8192, 4096]⟩
abbrev S4096x4096 : Shape := ⟨2, ![4096, 4096]⟩
abbrev S256x32x64 : Shape := ⟨3, ![256, 32, 64]⟩
abbrev S256x32 : Shape := ⟨2, ![256, 32]⟩
abbrev S256x4096 : Shape := ⟨2, ![256, 4096]⟩
abbrev S256x32x1 : Shape := ⟨3, ![256, 32, 1]⟩
abbrev S256x32x128 : Shape := ⟨3, ![256, 32, 128]⟩
abbrev S512x4096 : Shape := ⟨2, ![512, 4096]⟩
abbrev S1024x4096 : Shape := ⟨2, ![1024, 4096]⟩
abbrev S1x1024 : Shape := ⟨2, ![1, 1024]⟩
abbrev S512x1024 : Shape := ⟨2, ![512, 1024]⟩

abbrev nBuf : Space → Nat
  | .hbm => 28
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S4096x32x64, .i32⟩
  | .hbm, ⟨2, _⟩ => ⟨S131072, .f32⟩
  | .hbm, ⟨3, _⟩ => ⟨S65536, .i32⟩
  | .hbm, ⟨4, _⟩ => ⟨S4096, .f32⟩
  | .hbm, ⟨5, _⟩ => ⟨S4096x32, .f32⟩
  | .hbm, ⟨6, _⟩ => ⟨S_, .i32⟩
  | .hbm, ⟨7, _⟩ => ⟨S65536, .i32⟩
  | .hbm, ⟨8, _⟩ => ⟨S65536, .i32⟩
  | .hbm, ⟨9, _⟩ => ⟨S_, .i32⟩
  | .hbm, ⟨10, _⟩ => ⟨S65536, .i32⟩
  | .hbm, ⟨11, _⟩ => ⟨S65536, .i32⟩
  | .hbm, ⟨12, _⟩ => ⟨S_, .i32⟩
  | .hbm, ⟨13, _⟩ => ⟨S65536, .i32⟩
  | .hbm, ⟨14, _⟩ => ⟨S65536, .i32⟩
  | .hbm, ⟨15, _⟩ => ⟨S65536x1, .i32⟩
  | .hbm, ⟨16, _⟩ => ⟨S65536x1, .i32⟩
  | .hbm, ⟨17, _⟩ => ⟨S65536x2, .i32⟩
  | .hbm, ⟨18, _⟩ => ⟨S4096x32, .i32⟩
  | .hbm, ⟨19, _⟩ => ⟨S4096x32, .f32⟩
  | .hbm, ⟨20, _⟩ => ⟨S1x4096, .f32⟩
  | .hbm, ⟨21, _⟩ => ⟨S8192x32x64x2, .f32⟩
  | .hbm, ⟨22, _⟩ => ⟨S8192x32x2x64, .f32⟩
  | .hbm, ⟨23, _⟩ => ⟨S8192x4096, .f32⟩
  | .hbm, ⟨24, _⟩ => ⟨S8192x4096, .bf16⟩
  | .hbm, ⟨25, _⟩ => ⟨S4096x4096, .bf16⟩
  | .hbm, ⟨26, _⟩ => ⟨S8192x4096, .f32⟩
  | .hbm, ⟨27, _⟩ => ⟨S4x2048x4096, .f32⟩
  | .local _ .vmem, ⟨0, _⟩ => ⟨S256x32x64, .i32⟩
  | .local _ .vmem, ⟨1, _⟩ => ⟨S256x32x64, .i32⟩
  | .local _ .vmem, ⟨2, _⟩ => ⟨S256x32, .f32⟩
  | .local _ .vmem, ⟨3, _⟩ => ⟨S256x32, .f32⟩
  | .local _ .vmem, ⟨4, _⟩ => ⟨S256x32, .f32⟩
  | .local _ .vmem, ⟨5, _⟩ => ⟨S256x32, .f32⟩
  | .local _ .vmem, ⟨6, _⟩ => ⟨S256x4096, .bf16⟩
  | .local _ .vmem, ⟨7, _⟩ => ⟨S256x4096, .bf16⟩
  | .local _ .vmem, ⟨8, _⟩ => ⟨S512x4096, .bf16⟩
  | .local _ .vmem, ⟨9, _⟩ => ⟨S512x4096, .bf16⟩
  | .local _ .vmem, ⟨10, _⟩ => ⟨S1024x4096, .bf16⟩
  | .local _ .vmem, ⟨11, _⟩ => ⟨S1024x4096, .bf16⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x32x64 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S131072_S4096x32 : S131072.ShapeCasts S4096x32
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x2_d1 : Shape.Concatenates [S65536x1, S65536x1] S65536x2 1
  shapeCasts_S65536x2_S4096x32 : S65536x2.ShapeCasts S4096x32
  shapeCasts_S4096_S1x4096 : S4096.ShapeCasts S1x4096
  shapeCasts_S4x2048x4096_S8192x32x64x2 : S4x2048x4096.ShapeCasts S8192x32x64x2
  transposes_S8192x32x64x2_S8192x32x2x64_0_1_3_2 : S8192x32x64x2.Transposes [0, 1, 3, 2] S8192x32x2x64
  shapeCasts_S8192x32x2x64_S8192x4096 : S8192x32x2x64.ShapeCasts S8192x4096
  bitsLt_bf16_f32 : FTy.bits .bf16 < FTy.bits .f32
  inb_S256x32x64_S256x32x64_0_0_0 : ∀ a, (![0, 0, 0] : Fin 3 → Nat) a + S256x32x64.size a ≤ S256x32x64.size a
  h_S256x32x64 : 0 < S256x32x64.numel
  inb_S256x32_S256x32_0_0 : ∀ a, (![0, 0] : Fin 2 → Nat) a + S256x32.size a ≤ S256x32.size a
  h_S256x32 : 0 < S256x32.numel
  shapeCasts_S256x32_S256x32 : S256x32.ShapeCasts S256x32
  shapeCasts_S256x32_S256x32x1 : S256x32.ShapeCasts S256x32x1
  broadcasts_S256x32x1_S256x32x64 : S256x32x1.Broadcasts S256x32x64
  concatenates_S256x32x64_S256x32x64_S256x32x128_d2 : Shape.Concatenates [S256x32x64, S256x32x64] S256x32x128 2
  shapeCasts_S256x32x128_S256x4096 : S256x32x128.ShapeCasts S256x4096
  inb_S256x4096_S256x4096_0_0 : ∀ a, (![0, 0] : Fin 2 → Nat) a + S256x4096.size a ≤ S256x4096.size a
  h_S256x4096 : 0 < S256x4096.numel
  packedbf16_S256x4096_S256x4096_0_0 : (Rect.unit (s := S256x4096) ![0, 0] S256x4096.size inb_S256x4096_S256x4096_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S8192x4096_S4x2048x4096 : S8192x4096.ShapeCasts S4x2048x4096
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32x64.size a ≤ S4096x32x64.size a
  hwx0_0 : ∀ i : grid0.Coords, EltTy.bits .i32 = 32 ∨ (Rect.block (s := S4096x32x64) S256x32x64.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S4096x32.size a
  hwx0_1 : ∀ i : grid0.Coords, EltTy.bits .f32 = 32 ∨ (Rect.block (s := S4096x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S4096x32.size a
  hwx0_2 : ∀ i : grid0.Coords, EltTy.bits .f32 = 32 ∨ (Rect.block (s := S4096x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .bf16 = 32 ∨ (Rect.block (s := S4096x4096) S256x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .bf16 = 32 ∨ (Rect.block (s := S8192x4096) S512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S4096x4096.size a
  hwx1_1 : ∀ i : grid1.Coords, EltTy.bits .bf16 = 32 ∨ (Rect.block (s := S4096x4096) S1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x4096.size a
  hwx1_3 : ∀ i : grid1.Coords, EltTy.bits .f32 = 32 ∨ (Rect.block (s := S8192x4096) S512x1024.size (cc1_transform_3 i) (hinb1_3 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_arg1) S256x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1024x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x32x64 : Shape := ⟨3, ![4096, 32, 64]⟩
abbrev S131072 : Shape := ⟨1, ![131072]⟩
abbrev S65536 : Shape := ⟨1, ![65536]⟩
abbrev S4096 : Shape := ⟨1, ![4096]⟩
abbrev S_ : Shape := ⟨0, ![]⟩
abbrev S4096x32x64x1 : Shape := ⟨4, ![4096, 32, 64, 1]⟩
abbrev S4096x32x64x2 : Shape := ⟨4, ![4096, 32, 64, 2]⟩
abbrev S4096x32x128 : Shape := ⟨3, ![4096, 32, 128]⟩
abbrev S65536x1 : Shape := ⟨2, ![65536, 1]⟩
abbrev S65536x2 : Shape := ⟨2, ![65536, 2]⟩
abbrev S4096x32x1 : Shape := ⟨3, ![4096, 32, 1]⟩
abbrev S4096x4096 : Shape := ⟨2, ![4096, 4096]⟩
abbrev S1x1x4096 : Shape := ⟨3, ![1, 1, 4096]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x32x64, .i32⟩
  | .hbm, ⟨2, _⟩ => ⟨S131072, .f32⟩
  | .hbm, ⟨3, _⟩ => ⟨S65536, .i32⟩
  | .hbm, ⟨4, _⟩ => ⟨S4096, .f32⟩
  | .hbm, ⟨5, _⟩ => ⟨S_, .i32⟩
  | .hbm, ⟨6, _⟩ => ⟨S4096x32x64, .i32⟩
  | .hbm, ⟨7, _⟩ => ⟨S4096x32x64, .i32⟩
  | .hbm, ⟨8, _⟩ => ⟨S_, .i32⟩
  | .hbm, ⟨9, _⟩ => ⟨S4096x32x64, .i32⟩
  | .hbm, ⟨10, _⟩ => ⟨S4096x32x64, .i32⟩
  | .hbm, ⟨11, _⟩ => ⟨S_, .i32⟩
  | .hbm, ⟨12, _⟩ => ⟨S4096x32x64, .i32⟩
  | .hbm, ⟨13, _⟩ => ⟨S4096x32x64, .i32⟩
  | .hbm, ⟨14, _⟩ => ⟨S4096x32x64x1, .i32⟩
  | .hbm, ⟨15, _⟩ => ⟨S4096x32x64x1, .i32⟩
  | .hbm, ⟨16, _⟩ => ⟨S4096x32x64x2, .i32⟩
  | .hbm, ⟨17, _⟩ => ⟨S4096x32x128, .i32⟩
  | .hbm, ⟨18, _⟩ => ⟨S_, .i32⟩
  | .hbm, ⟨19, _⟩ => ⟨S65536, .i32⟩
  | .hbm, ⟨20, _⟩ => ⟨S65536, .i32⟩
  | .hbm, ⟨21, _⟩ => ⟨S_, .i32⟩
  | .hbm, ⟨22, _⟩ => ⟨S65536, .i32⟩
  | .hbm, ⟨23, _⟩ => ⟨S65536, .i32⟩
  | .hbm, ⟨24, _⟩ => ⟨S_, .i32⟩
  | .hbm, ⟨25, _⟩ => ⟨S65536, .i32⟩
  | .hbm, ⟨26, _⟩ => ⟨S65536, .i32⟩
  | .hbm, ⟨27, _⟩ => ⟨S65536x1, .i32⟩
  | .hbm, ⟨28, _⟩ => ⟨S65536x1, .i32⟩
  | .hbm, ⟨29, _⟩ => ⟨S65536x2, .i32⟩
  | .hbm, ⟨30, _⟩ => ⟨S4096x32x1, .i32⟩
  | .hbm, ⟨31, _⟩ => ⟨S4096x32x1, .f32⟩
  | .hbm, ⟨32, _⟩ => ⟨S4096x32x128, .f32⟩
  | .hbm, ⟨33, _⟩ => ⟨S4096x32x1, .f32⟩
  | .hbm, ⟨34, _⟩ => ⟨S4096x32x128, .f32⟩
  | .hbm, ⟨35, _⟩ => ⟨S4096x32x128, .f32⟩
  | .hbm, ⟨36, _⟩ => ⟨S4096x32x128, .f32⟩
  | .hbm, ⟨37, _⟩ => ⟨S4096x32x128, .f32⟩
  | .hbm, ⟨38, _⟩ => ⟨S4096x4096, .f32⟩
  | .hbm, ⟨39, _⟩ => ⟨S4x2048x4096, .f32⟩
  | .hbm, ⟨40, _⟩ => ⟨S1x1x4096, .f32⟩
  | .hbm, ⟨41, _⟩ => ⟨S4x2048x4096, .f32⟩
  | .hbm, ⟨42, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  bcast_S_S4096x32x64 : S_.BroadcastsInDim S4096x32x64 (![] : Fin 0 → Fin S4096x32x64.rank)
  bcast_S4096x32x64_S4096x32x64x1_0_1_2 : S4096x32x64.BroadcastsInDim S4096x32x64x1 (![0, 1, 2] : Fin 3 → Fin S4096x32x64x1.rank)
  concatenates_S4096x32x64x1_S4096x32x64x1_S4096x32x64x2_d3 : Shape.Concatenates [S4096x32x64x1, S4096x32x64x1] S4096x32x64x2 3
  shapeCasts_S4096x32x64x2_S4096x32x128 : S4096x32x64x2.ShapeCasts S4096x32x128
  bcast_S_S65536 : S_.BroadcastsInDim S65536 (![] : Fin 0 → Fin S65536.rank)
  bcast_S65536_S65536x1_0 : S65536.BroadcastsInDim S65536x1 (![0] : Fin 1 → Fin S65536x1.rank)
  concatenates_S65536x1_S65536x1_S65536x2_d1 : Shape.Concatenates [S65536x1, S65536x1] S65536x2 1
  shapeCasts_S65536x2_S4096x32x1 : S65536x2.ShapeCasts S4096x32x1
  shapeCasts_S131072_S4096x32x1 : S131072.ShapeCasts S4096x32x1
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The mathematics of a linear layer over 4-bit block-quantized weights, stated once over plain arrays.

  A weight row `n` has 32 groups of 128 columns. Group `r` of row `n` is stored as 64 words; word `b` holds two 4-bit
  fields: field 0 (bits 0–3) is column `128 r + 2 b`, field 1 (bits 4–7) is column `128 r + 2 b + 1`. Each group has
  a scale `s (32 n + r)` and a 4-bit zero point, field `(32 n + r) mod 2` of word `(32 n + r) / 2` of the packed zero points.
  The weight is `(field − zero point) · scale`, and the layer is `out (β, τ, n) = ∑ₖ x (β, τ, k) · W (n, k) + bias n`.

  The sum over the 4096 columns may be taken in any order: under the bijection `σ k = 128 (k / 128) + 2 (k mod 64) +
  (k mod 128) / 64` — which lists each group's even columns first and its odd columns after — the same value is
  `∑ₖ x (β, τ, σ k) · W (n, σ k)`, and `W (n, σ k)` is field `(k mod 128) / 64` of word `k mod 64` of group `k / 128`.
  Only commutativity and associativity of the sum are used, so the law holds on the extended reals at every input.
-/
import Idealize.ShloMosaic.PureOps.Ideal
import Idealize.ShloMosaic.Lib.ValueIdx

noncomputable section

open scoped BigOperators

namespace Cert.QuantLinear

open Idealize.ShloMosaic Idealize.ShloMosaic.ValueIdx

abbrev SX : Shape := ⟨3, ![4, 2048, 4096]⟩
abbrev SQ : Shape := ⟨3, ![4096, 32, 64]⟩
abbrev SS : Shape := ⟨1, ![131072]⟩
abbrev SZ : Shape := ⟨1, ![65536]⟩
abbrev SB : Shape := ⟨1, ![4096]⟩

/-- Field `h` of a packed word: its low four bits when `h = 0`, otherwise bits 4 to 7. -/
def nib (h : Nat) (w : BitVec 32) : BitVec 32 :=
  if h = 0 then w &&& 15#32 else (w.sshiftRight' 4#32) &&& 15#32

/-- A right shift by four, on any of the machine's units, is the plain arithmetic shift: four is below the word's width. -/
theorem shrsi_four (u : ArithUnit) (w : BitVec 32) : IntOp.shrsi u w 4#32 = w.sshiftRight' 4#32 := by
  unfold IntOp.shrsi
  rw [if_pos (by decide)]

/-- A signed word as an extended real. -/
def toE (w : BitVec 32) : EReal := ((w.toInt : ℝ) : EReal)

/-- The zero point of row `n`, group `r`. -/
def zp (qz : SZ.Idx → BitVec 32) (n : Fin 4096) (r : Fin 32) : EReal :=
  toE (nib ((n.val * 32 + r.val) % 2) (qz (ix1 ⟨(n.val * 32 + r.val) / 2, by have := n.isLt; have := r.isLt; omega⟩)))

/-- The scale of row `n`, group `r`. -/
def scl (sc : SS.Idx → EReal) (n : Fin 4096) (r : Fin 32) : EReal :=
  sc (ix1 ⟨n.val * 32 + r.val, by have := n.isLt; have := r.isLt; omega⟩)

/-- The dequantized weight of row `n` from field `h` of word `b` of group `r`. -/
def wgt (qw : SQ.Idx → BitVec 32) (sc : SS.Idx → EReal) (qz : SZ.Idx → BitVec 32)
    (n : Fin 4096) (r : Fin 32) (b : Fin 64) (h : Fin 2) : EReal :=
  (toE (nib h.val (qw (ix3 n r b))) - zp qz n r) * scl sc n r

/-- The weight matrix with its columns in the layer's own order: column `k` is field `k mod 2` of word `(k mod 128) / 2`. -/
def wcol (qw : SQ.Idx → BitVec 32) (sc : SS.Idx → EReal) (qz : SZ.Idx → BitVec 32) (n k : Fin 4096) : EReal :=
  wgt qw sc qz n ⟨k.val / 128, by have := k.isLt; omega⟩ ⟨k.val % 128 / 2, by omega⟩ ⟨k.val % 2, by omega⟩

/-- In the evens-first order column `k` lies in group `k / 128`, … -/
def grp (k : Fin 4096) : Fin 32 := ⟨k.val / 128, by have := k.isLt; omega⟩
/-- … comes from word `k mod 64` of that group, … -/
def wrd (k : Fin 4096) : Fin 64 := ⟨k.val % 64, by omega⟩
/-- … and is its field `(k mod 128) / 64`. -/
def fld (k : Fin 4096) : Fin 2 := ⟨k.val % 128 / 64, by omega⟩

/-- The same matrix with each group's even columns first. -/
def kcol (qw : SQ.Idx → BitVec 32) (sc : SS.Idx → EReal) (qz : SZ.Idx → BitVec 32) (n k : Fin 4096) : EReal :=
  wgt qw sc qz n (grp k) (wrd k) (fld k)

/-- Evens first, then odds, group by group. -/
def sigma (k : Fin 4096) : Fin 4096 :=
  ⟨k.val / 128 * 128 + 2 * (k.val % 64) + k.val % 128 / 64, by have := k.isLt; omega⟩

theorem sigma_val (k : Fin 4096) : (sigma k).val = k.val / 128 * 128 + 2 * (k.val % 64) + k.val % 128 / 64 := rfl

/-- Every column is word `b` of field `h` of group `r` in the evens-first order: `k = 128 r + 64 h + b`. -/
theorem col_decomp (k : Fin 4096) : ∃ r h b : Nat, h < 2 ∧ b < 64 ∧ k.val = 128 * r + 64 * h + b :=
  ⟨k.val / 128, k.val % 128 / 64, k.val % 64, by omega, by omega, by omega⟩

/-- At `k = 128 r + 64 h + b`: the group, the word, the field, and where σ sends it. -/
theorem div128_of (r h b : Nat) (hh : h < 2) (hb : b < 64) : (128 * r + 64 * h + b) / 128 = r := by omega
theorem mod64_of (r h b : Nat) (hh : h < 2) (hb : b < 64) : (128 * r + 64 * h + b) % 64 = b := by omega
theorem mod128_of (r h b : Nat) (hh : h < 2) (hb : b < 64) : (128 * r + 64 * h + b) % 128 = 64 * h + b := by omega
theorem field_of (r h b : Nat) (hh : h < 2) (hb : b < 64) : (128 * r + 64 * h + b) % 128 / 64 = h := by
  rw [mod128_of r h b hh hb]; omega
theorem sigma_of (k : Fin 4096) (r h b : Nat) (hh : h < 2) (hb : b < 64) (e : k.val = 128 * r + 64 * h + b) :
    (sigma k).val = 128 * r + 2 * b + h := by
  rw [sigma_val, e, div128_of r h b hh hb, mod64_of r h b hh hb, field_of r h b hh hb]; omega

/-- At `j = 128 r + 2 b + h` (the layer's own order): the group, the word and the field. -/
theorem grp_of (r h b : Nat) (hh : h < 2) (hb : b < 64) : (128 * r + 2 * b + h) / 128 = r := by omega
theorem word_of (r h b : Nat) (hh : h < 2) (hb : b < 64) : (128 * r + 2 * b + h) % 128 / 2 = b := by
  have e : (128 * r + 2 * b + h) % 128 = 2 * b + h := by omega
  rw [e]; omega
theorem parity_of (r h b : Nat) (hh : h < 2) (hb : b < 64) : (128 * r + 2 * b + h) % 2 = h := by omega

theorem sigma_bijective : Function.Bijective sigma :=
  Finite.injective_iff_bijective.1 fun k k' h => Fin.ext (by
    have e := congrArg Fin.val h
    obtain ⟨r, f, b, hf, hb, ek⟩ := col_decomp k
    obtain ⟨r', f', b', hf', hb', ek'⟩ := col_decomp k'
    rw [sigma_of k r f b hf hb ek, sigma_of k' r' f' b' hf' hb' ek'] at e
    have e1 : f = f' := by omega
    have e2 : b = b' := by omega
    have e3 : r = r' := by omega
    rw [ek, ek', e1, e2, e3])

/-- A column is put back together from its group, its field and its word. -/
theorem col_recompose (k : Fin 4096) : ((grp k).val * 2 + (fld k).val) * 64 + (wrd k).val = k.val := by
  obtain ⟨r, f, b, hf, hb, ek⟩ := col_decomp k
  show (k.val / 128 * 2 + k.val % 128 / 64) * 64 + k.val % 64 = k.val
  rw [ek, div128_of r f b hf hb, field_of r f b hf hb, mod64_of r f b hf hb]; omega

/-- Where σ sends a column, by its group, word and field. -/
theorem sigma_parts (k : Fin 4096) : (sigma k).val = (grp k).val * 128 + 2 * (wrd k).val + (fld k).val := rfl

/-- A sum over the columns does not depend on the order in which they are listed. -/
theorem sum_sigma (f : Fin 4096 → EReal) : ∑ k, f (sigma k) = ∑ k, f k :=
  sigma_bijective.sum_comp f

/-- Column `σ k` of the layer's matrix is column `k` of the evens-first one. -/
theorem wcol_sigma (qw : SQ.Idx → BitVec 32) (sc : SS.Idx → EReal) (qz : SZ.Idx → BitVec 32) (n k : Fin 4096) :
    wcol qw sc qz n (sigma k) = kcol qw sc qz n k := by
  unfold wcol kcol grp wrd fld
  obtain ⟨r, f, b, hf, hb, ek⟩ := col_decomp k
  have es := sigma_of k r f b hf hb ek
  have e0 : (sigma k).val / 128 = k.val / 128 := by rw [es, ek, div128_of r f b hf hb, grp_of r f b hf hb]
  have e1 : (sigma k).val % 128 / 2 = k.val % 64 := by rw [es, ek, mod64_of r f b hf hb, word_of r f b hf hb]
  have e2 : (sigma k).val % 2 = k.val % 128 / 64 := by rw [es, ek, field_of r f b hf hb, parity_of r f b hf hb]
  congr 1 <;> exact Fin.ext (by assumption)

/-- The layer at output element `(β, τ, n)`. -/
def outAt (x : SX.Idx → EReal) (qw : SQ.Idx → BitVec 32) (sc : SS.Idx → EReal) (qz : SZ.Idx → BitVec 32) (bias : SB.Idx → EReal)
    (β : Fin 4) (τ : Fin 2048) (n : Fin 4096) : EReal :=
  (∑ k : Fin 4096, x (ix3 β τ k) * wcol qw sc qz n k) + bias (ix1 n)

/-- The same element with the columns listed evens first. -/
theorem outAt_evens_first (x : SX.Idx → EReal) (qw : SQ.Idx → BitVec 32) (sc : SS.Idx → EReal) (qz : SZ.Idx → BitVec 32)
    (bias : SB.Idx → EReal) (β : Fin 4) (τ : Fin 2048) (n : Fin 4096) :
    outAt x qw sc qz bias β τ n = (∑ k : Fin 4096, x (ix3 β τ (sigma k)) * kcol qw sc qz n k) + bias (ix1 n) := by
  unfold outAt
  rw [← sum_sigma]
  simp only [wcol_sigma]

/-- The layer as one array. -/
def out (x : SX.Idx → EReal) (qw : SQ.Idx → BitVec 32) (sc : SS.Idx → EReal) (qz : SZ.Idx → BitVec 32) (bias : SB.Idx → EReal) :
    SX.Idx → EReal :=
  fun i => outAt x qw sc qz bias (i 0) (i 1) (i 2)

end Cert.QuantLinear

end
-- ==== Proof.DequantBlock.lean ====
/-
  One grid point of the dequantization, read at an element.

  The body takes a 256 × 32 × 64 block of packed words and the 256 × 32 zero points and scales of its rows' groups,
  forms `(low field − zero) · scale` and `(high field − zero) · scale`, joins the two along the last axis — all 64 low
  fields of a group first, its 64 high fields after — and flattens the 32 groups of 128 into a row of 4096. So column
  `q` of row `p` of the block is field `(q mod 128) / 64` of word `q mod 64` of group `q / 128`, less the group's zero
  point, times its scale; the closing change of float format is the identity on the extended reals.
-/
import proofs.«424667_j22170621182416_3_alg».proof.Proof.Gen.KernelIdeal.Skeleton
import proofs.«424667_j22170621182416_3_alg».proof.Proof.Spec
import Idealize.ShloMosaic.Lib.ValueIdx
import Idealize.ShloMosaic.Lib.Pipeline.Value

noncomputable section

namespace Cert.KernelIdeal.DequantBlock

open Cert.KernelIdeal Cert.KernelIdeal.Gen Idealize.ShloMosaic Idealize.ShloMosaic.ValueIdx Cert.QuantLinear

/-- A per-group value (a zero point, a scale) given a unit last axis and spread over the group's 64 words reads, at
    `(p, r, b)`, the value of `(p, r)`. -/
theorem spread_at (v : FVec Ideal S256x32 .f32) (p : Fin 256) (r : Fin 32) (b : Fin 64) :
    broadcastTo S256x32x64 (shapeCast S256x32x1 (shapeCast S256x32 v Facts₀.shapeCasts_S256x32_S256x32) Facts₀.shapeCasts_S256x32_S256x32x1)
      Facts₀.broadcasts_S256x32x1_S256x32x64 (ix3 p r b) = v (ix2 p r) := by
  rw [shapeCast_self]
  rw [broadcastTo_apply _ Facts₀.broadcasts_S256x32x1_S256x32x64 (ix3 p r b) (ix3 p r (0 : Fin 1)) (fun d => match d with
    | ⟨0, _⟩ => by show p.val = if (256 : Nat) = 1 then 0 else p.val; rw [if_neg (by decide)]
    | ⟨1, _⟩ => by show r.val = if (32 : Nat) = 1 then 0 else r.val; rw [if_neg (by decide)]
    | ⟨2, _⟩ => by show 0 = if (1 : Nat) = 1 then 0 else _; rw [if_pos rfl])]
  exact shapeCast_apply v Facts₀.shapeCasts_S256x32_S256x32x1 (ix3 p r (0 : Fin 1)) (ix2 p r)
    (by rewrite [Shape.rowMajor_val_two, Shape.rowMajor_val_three]; show p.val * 32 + r.val = (p.val * 32 + r.val) * 1 + 0; omega)

/-- THE BLOCK'S ELEMENT `(p, q)`: field `fld q` of word `wrd q` of group `grp q` of row `p`, less the group's zero point,
    times its scale. -/
theorem pay_apply (qw : Vec Ideal S256x32x64 .i32) (z s : Vec Ideal S256x32 .f32) (p : Fin 256) (q : Fin 4096) :
    k0_pay1 qw z s (ix2 p q)
      = (toE (nib (fld q).val (qw (ix3 p (grp q) (wrd q)))) - z (ix2 p (grp q))) * s (ix2 p (grp q)) := by
  have hq := q.isLt
  unfold k0_pay1
  rw [truncf_apply]
  rw [shapeCast_apply _ Facts₀.shapeCasts_S256x32x128_S256x4096 (ix2 p q) (ix3 p (grp q) (⟨q.val % 128, Nat.mod_lt _ (by decide)⟩ : Fin 128))
    (by rewrite [Shape.rowMajor_val_three, Shape.rowMajor_val_two]; show (p.val * 32 + q.val / 128) * 128 + q.val % 128 = p.val * 4096 + q.val; omega)]
  by_cases hlo : q.val % 128 < 64
  · -- a low field: the first piece of the join
    have hf : (fld q).val = 0 := by show q.val % 128 / 64 = 0; omega
    rw [concatenate_pair_apply_left (t := S256x32x128) (s₁ := S256x32x64) (s₂ := S256x32x64) (2 : Fin 3) _ _
      Facts₀.concatenates_S256x32x64_S256x32x64_S256x32x128_d2 (ix3 p (grp q) (⟨q.val % 128, Nat.mod_lt _ (by decide)⟩ : Fin 128)) rfl (ix3 p (grp q) (wrd q))
      (fun d => match d with
        | ⟨0, _⟩ => rfl
        | ⟨1, _⟩ => rfl
        | ⟨2, _⟩ => by show q.val % 64 = q.val % 128; omega)]
    rw [mulf_apply, subf_apply, spread_at, spread_at, hf]
    rfl
  · -- a high field: the second piece, 64 places on
    have hf : (fld q).val = 1 := by show q.val % 128 / 64 = 1; omega
    rw [concatenate_pair_apply_right (t := S256x32x128) (s₁ := S256x32x64) (s₂ := S256x32x64) (2 : Fin 3) _ _
      Facts₀.concatenates_S256x32x64_S256x32x64_S256x32x128_d2 (ix3 p (grp q) (⟨q.val % 128, Nat.mod_lt _ (by decide)⟩ : Fin 128)) rfl rfl (ix3 p (grp q) (wrd q))
      (fun d => match d with
        | ⟨0, _⟩ => fun _ => rfl
        | ⟨1, _⟩ => fun _ => rfl
        | ⟨2, _⟩ => fun h => absurd rfl h)
      (by show q.val % 64 + 64 = q.val % 128; omega)]
    rw [mulf_apply, subf_apply, spread_at, spread_at, hf]
    show (toE (IntOp.andi (IntOp.shrsi .vector (qw (ix3 p (grp q) (wrd q))) 4#32) 15#32) - _) * _ = _
    rw [shrsi_four]
    rfl

end Cert.KernelIdeal.DequantBlock

end
-- ==== Proof.DequantRegion.lean ====
/-
  The first pipeline: the whole dequantized weight matrix.

  The grid's 16 points each take rows `256 t … 256 t + 255` of the packed words, the scales and the zero points and write
  the same rows of the 4096 × 4096 result, so point `t`'s write-back is block `t` of ONE matrix: entry `(n, k)` is field
  `fld k` of word `wrd k` of group `grp k` of row `n`, less that group's zero point, times its scale. The 16 blocks
  tile the rows, so after the pipeline the array holds that matrix whatever it held before.
-/
import proofs.«424667_j22170621182416_3_alg».proof.Proof.Gen.KernelIdeal.Frame
import proofs.«424667_j22170621182416_3_alg».proof.Proof.DequantBlock
import Idealize.ShloMosaic.Lib.Pipeline.Value

set_option maxRecDepth 16384

noncomputable section

namespace Cert.KernelIdeal.DequantRegion

open Cert.KernelIdeal Cert.KernelIdeal.Gen Idealize.ShloMosaic Idealize.ShloMosaic.TcCoe Idealize.ShloMosaic.ValueIdx
open Idealize.SL.Sem Cert.QuantLinear
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- Entry `(n, k)` of the dequantized matrix, from the packed words `Q`, the scales `S` and the zero points `Z` as the
    pipeline finds them (the latter two already one value per row and group). -/
def entry (Q : S4096x32x64.Idx → BitVec 32) (S Z : S4096x32.Idx → EReal) (n k : Fin 4096) : EReal :=
  (toE (nib (fld k).val (Q (ix3 n (grp k) (wrd k)))) - Z (ix2 n (grp k))) * S (ix2 n (grp k))

/-- The matrix. -/
def matrix (Q : S4096x32x64.Idx → BitVec 32) (S Z : S4096x32.Idx → EReal) : S4096x4096.Idx → EReal :=
  fun i => entry Q S Z (i 0) (i 1)

/-- Every window's block index at point `t` is `t` along the rows and `0` elsewhere. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem lt16 (t : Fin cfg0.N) : t.val < 16 := Nat.lt_of_lt_of_eq t.isLt N_0

/-- Row `p` of point `t`'s blocks is row `256 t + p` of the arrays. -/
def row (t : Fin cfg0.N) (p : Fin 256) : Fin 4096 := ⟨t.val * 256 + p.val, by have := lt16 t; have := p.isLt; omega⟩

/-- The packed words' block at point `t`. -/
theorem words_at (c : Dev nD) (t : Fin cfg0.N) (p : Fin 256) (r : Fin 32) (b : Fin 64) :
    (iblk0 V c 0 t : Vec Ideal S256x32x64 .i32) (ix3 p r b) = (V c main_arg1 : S4096x32x64.Idx → BitVec 32) (ix3 (row t p) r b) := by
  obtain ⟨e0, e1, e2, -⟩ := idx_facts t
  unfold iblk0
  rw [View.read_apply]
  show V c main_arg1 _ = V c main_arg1 _
  congr 1
  funext a
  apply Fin.ext
  match a with
  | ⟨0, _⟩ => show win0_0.index t (0 : Fin 3) * 256 + 1 * p.val = t.val * 256 + p.val; rw [e0]; omega
  | ⟨1, _⟩ => show win0_0.index t (1 : Fin 3) * 32 + 1 * r.val = r.val; rw [e1]; omega
  | ⟨2, _⟩ => show win0_0.index t (2 : Fin 3) * 64 + 1 * b.val = b.val; rw [e2]; omega

/-- The scales' block at point `t`. -/
theorem scales_at (c : Dev nD) (t : Fin cfg0.N) (p : Fin 256) (r : Fin 32) :
    (iblk0 V c 1 t : Vec Ideal S256x32 .f32) (ix2 p r) = (V c main_v0 : S4096x32.Idx → EReal) (ix2 (row t p) r) := by
  obtain ⟨-, -, -, e0, e1, -⟩ := idx_facts t
  unfold iblk0
  rw [View.read_apply]
  show V c main_v0 _ = V c main_v0 _
  congr 1
  funext a
  apply Fin.ext
  match a with
  | ⟨0, _⟩ => show win0_1.index t (0 : Fin 2) * 256 + 1 * p.val = t.val * 256 + p.val; rw [e0]; omega
  | ⟨1, _⟩ => show win0_1.index t (1 : Fin 2) * 32 + 1 * r.val = r.val; rw [e1]; omega

/-- The zero points' block at point `t`. -/
theorem zeros_at (c : Dev nD) (t : Fin cfg0.N) (p : Fin 256) (r : Fin 32) :
    (iblk0 V c 2 t : Vec Ideal S256x32 .f32) (ix2 p r) = (V c main_v11 : S4096x32.Idx → EReal) (ix2 (row t p) r) := by
  obtain ⟨-, -, -, -, -, e0, e1, -⟩ := idx_facts t
  unfold iblk0
  rw [View.read_apply]
  show V c main_v11 _ = V c main_v11 _
  congr 1
  funext a
  apply Fin.ext
  match a with
  | ⟨0, _⟩ => show win0_2.index t (0 : Fin 2) * 256 + 1 * p.val = t.val * 256 + p.val; rw [e0]; omega
  | ⟨1, _⟩ => show win0_2.index t (1 : Fin 2) * 32 + 1 * r.val = r.val; rw [e1]; omega

/-- Where the output's block at point `t` lies in the array. -/
theorem out_at (t : Fin cfg0.N) (p : Fin 256) (q : Fin 4096) :
    ((cfg0.win 3).blk t).view.emb (ix2 p q) = (ix2 (row t p) q : S4096x4096.Idx) := by
  obtain ⟨-, -, -, -, -, -, -, e0, e1⟩ := idx_facts t
  funext a
  apply Fin.ext
  match a with
  | ⟨0, _⟩ => show win0_3.index t (0 : Fin 2) * 256 + 1 * p.val = t.val * 256 + p.val; rw [e0]; omega
  | ⟨1, _⟩ => show win0_3.index t (1 : Fin 2) * 4096 + 1 * q.val = q.val; rw [e1]; omega

/-- WHAT POINT `t` WRITES BACK is block `t` of the matrix of the arrays as the pipeline finds them. -/
theorem flushed_eq (c : Dev nD) (t : Fin cfg0.N) :
    (dat0 V c).flushed 3 t = ((cfg0.win 3).blk t).view.read (Elt Ideal) (matrix (V c main_arg1) (V c main_v0) (V c main_v11)) := by
  show (cfg0.win 3).cut (grid0.coords t) ((dat0 V c).after 3 t) = _
  rw [after0_3]
  unfold out0_3
  rw [View.canon_unit_zero hz2]
  simp only [View.ld_unit_zero (S := S256x32x64) hz3, View.ld_unit_zero (S := S256x32) hz2]
  funext j
  obtain ⟨p, q, rfl⟩ : ∃ (p : Fin 256) (q : Fin 4096), j = ix2 p q := ⟨j 0, j 1, eq_ix2 j⟩
  rw [View.read_apply, out_at]
  refine (DequantBlock.pay_apply (iblk0 V c 0 t) (iblk0 V c 2 t) (iblk0 V c 1 t) p q).trans ?_
  rw [words_at, zeros_at, scales_at]
  rfl

/-- An index of the array is in point `t`'s block iff each coordinate is in the block's range on its axis. -/
theorem mem_blk (t : Fin cfg0.N) (i : S4096x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v17).slice (win0_3.rect t)).set ↔ _
  rw [View.set_slice_whole, Rect.mem_set_unit]
  exact Iff.rfl

/-- Every entry of the array lies in the block of the point that takes its row. -/
theorem cover (i : S4096x4096.Idx) : ∃ t : Fin cfg0.N, (cfg0.win 3).flush t = true ∧ i ∈ ((cfg0.win 3).blk t).view.set := by
  have h0 : (i 0).val < 4096 := (i 0).isLt
  have h1 : (i 1).val < 4096 := (i 1).isLt
  let t : Fin cfg0.N := ⟨(i 0).val / 256, by rw [show cfg0.N = 16 from N_0]; omega⟩
  obtain ⟨-, -, -, -, -, -, -, e0, e1⟩ := idx_facts t
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; rw [e0]; show (i 0).val / 256 * 256 ≤ (i 0).val ∧ (i 0).val < (i 0).val / 256 * 256 + 256; omega
  | ⟨1, _⟩ => show win0_3.index t (1 : Fin 2) * 4096 ≤ (i 1).val ∧ (i 1).val < win0_3.index t (1 : Fin 2) * 4096 + 4096; rw [e1]; omega

/-- THE ARRAY after the first pipeline: the dequantized matrix of the arrays it was entered with. -/
theorem final (c : Dev nD) :
    (dat0 V c).arrAt 3 cfg0.N = matrix (V c main_arg1) (V c main_v0) (V c main_v11) :=
  (dat0 V c).arrAt_eq_of_cover 3 (matrix (V c main_arg1) (V c main_v0) (V c main_v11)) (fun t _ => flushed_eq V c t) cover

end Cert.KernelIdeal.DequantRegion

end
-- ==== Proof.MatmulBlock.lean ====
/-
  One grid point of the matrix product, read at an element.

  The body multiplies a 512 × 4096 block of the (column-permuted) activations by the transpose of a 1024 × 4096 block
  of the dequantized weights — both contracted over their second axis — into a zero accumulator and adds a row of
  1024 biases to every row of the result. On the extended reals the product into zero is the plain sum over the 4096
  columns, so element `(p, q)` of the block is `∑ₖ a (p, k) · w (q, k) + β (0, q)`.
-/
import proofs.«424667_j22170621182416_3_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.MatmulBlock

open Cert.KernelIdeal Cert.KernelIdeal.Gen Idealize.ShloMosaic Idealize.ShloMosaic.ValueIdx

/-- The left operand is read at the output's row … -/
theorem lhs_0 (i : S512x1024.Idx) (q : dot_S512x4096_S1024x4096_S512x1024_1_1_0_0_n_n.contr.Idx) :
    (dot_S512x4096_S1024x4096_S512x1024_1_1_0_0_n_n.lhsIdx i q 0).val = (i 0).val := by
  unfold DotDims.lhsIdx
  rw [dif_neg (show ¬(0 : Fin S512x4096.rank) ∈ dot_S512x4096_S1024x4096_S512x1024_1_1_0_0_n_n.lhsBatch by decide), dif_pos (show (0 : Fin S512x4096.rank) ∈ dot_S512x4096_S1024x4096_S512x1024_1_1_0_0_n_n.lhsNonContracting by decide)]
  rfl
/-- … and the contracted column; -/
theorem lhs_1 (i : S512x1024.Idx) (q : dot_S512x4096_S1024x4096_S512x1024_1_1_0_0_n_n.contr.Idx) :
    (dot_S512x4096_S1024x4096_S512x1024_1_1_0_0_n_n.lhsIdx i q 1).val = (q ⟨0, by decide⟩).val :=
  dot_S512x4096_S1024x4096_S512x1024_1_1_0_0_n_n.lhsIdx_val_of_single rfl i q
/-- the right operand at the output's column, as ITS row, … -/
theorem rhs_0 (i : S512x1024.Idx) (q : dot_S512x4096_S1024x4096_S512x1024_1_1_0_0_n_n.contr.Idx) :
    (dot_S512x4096_S1024x4096_S512x1024_1_1_0_0_n_n.rhsIdx i q 0).val = (i 1).val := by
  unfold DotDims.rhsIdx
  rw [dif_neg (show ¬(0 : Fin S1024x4096.rank) ∈ dot_S512x4096_S1024x4096_S512x1024_1_1_0_0_n_n.rhsBatch by decide), dif_pos (show (0 : Fin S1024x4096.rank) ∈ dot_S512x4096_S1024x4096_S512x1024_1_1_0_0_n_n.rhsNonContracting by decide)]
  rfl
/-- … and the contracted column. -/
theorem rhs_1 (i : S512x1024.Idx) (q : dot_S512x4096_S1024x4096_S512x1024_1_1_0_0_n_n.contr.Idx) :
    (dot_S512x4096_S1024x4096_S512x1024_1_1_0_0_n_n.rhsIdx i q 1).val = (q ⟨0, by decide⟩).val :=
  dot_S512x4096_S1024x4096_S512x1024_1_1_0_0_n_n.rhsIdx_val_of_single rfl i q

/-- The product into a zero accumulator at `(p, q)`: the sum over the columns of row `p` of the left block times row `q`
    of the right one. -/
theorem matmul_at (a : FVec Ideal S512x4096 .bf16) (w : FVec Ideal S1024x4096 .bf16) (p : Fin 512) (q : Fin 1024) :
    matmul dot_S512x4096_S1024x4096_S512x1024_1_1_0_0_n_n none a w (constant S512x1024 .f32 0x00000000#32) (ix2 p q)
      = ∑ k : Fin 4096, a (ix2 p k) * w (ix2 q k) := by
  simp only [matmul]
  rw [Ideal.matmul_constant_zero_apply, ← Equiv.sum_comp (contrEquiv1 dot_S512x4096_S1024x4096_S512x1024_1_1_0_0_n_n 4096 rfl rfl).symm]
  refine Finset.sum_congr rfl fun k _ => ?_
  have hk := contrEquiv1_symm_val dot_S512x4096_S1024x4096_S512x1024_1_1_0_0_n_n 4096 rfl rfl k
  have el : dot_S512x4096_S1024x4096_S512x1024_1_1_0_0_n_n.lhsIdx (ix2 p q) ((contrEquiv1 dot_S512x4096_S1024x4096_S512x1024_1_1_0_0_n_n 4096 rfl rfl).symm k) = ix2 p k := funext fun d => Fin.ext (by
    match d with
    | ⟨0, _⟩ => exact lhs_0 _ _
    | ⟨1, _⟩ => exact (lhs_1 _ _).trans hk)
  have er : dot_S512x4096_S1024x4096_S512x1024_1_1_0_0_n_n.rhsIdx (ix2 p q) ((contrEquiv1 dot_S512x4096_S1024x4096_S512x1024_1_1_0_0_n_n 4096 rfl rfl).symm k) = ix2 q k := funext fun d => Fin.ext (by
    match d with
    | ⟨0, _⟩ => exact rhs_0 _ _
    | ⟨1, _⟩ => exact (rhs_1 _ _).trans hk)
  rw [el, er]

/-- A row of biases spread over the block's 512 rows reads, at `(p, q)`, bias `q`. -/
theorem bias_at (β : FVec Ideal S1x1024 .f32) (p : Fin 512) (q : Fin 1024) :
    broadcastTo S512x1024 β Facts₀.broadcasts_S1x1024_S512x1024 (ix2 p q) = β (ix2 (0 : Fin 1) q) :=
  broadcastTo_apply β Facts₀.broadcasts_S1x1024_S512x1024 (ix2 p q) (ix2 (0 : Fin 1) q) (fun d => match d with
    | ⟨0, _⟩ => by show 0 = if (1 : Nat) = 1 then 0 else _; rw [if_pos rfl]
    | ⟨1, _⟩ => by show q.val = if (1024 : Nat) = 1 then 0 else q.val; rw [if_neg (by decide)])

/-- THE BLOCK'S ELEMENT `(p, q)`: `∑ₖ a (p, k) · w (q, k) + β (0, q)`. -/
theorem pay_apply (a : Vec Ideal S512x4096 .bf16) (w : Vec Ideal S1024x4096 .bf16) (β : Vec Ideal S1x1024 .f32)
    (p : Fin 512) (q : Fin 1024) :
    k1_pay1 a w β (ix2 p q) = (∑ k : Fin 4096, a (ix2 p k) * w (ix2 q k)) + β (ix2 (0 : Fin 1) q) := by
  unfold k1_pay1
  rw [addf_apply, shapeCast_self, shapeCast_self, shapeCast_self, matmul_at, bias_at]

end Cert.KernelIdeal.MatmulBlock

end
-- ==== Proof.MatmulRegion.lean ====
/-
  The second pipeline: the whole product.

  The grid is 4 × 16. Point `t` takes rows `512 (t mod 16) …` of the activations, rows `1024 (t / 16) …` of the weight
  matrix and the same 1024 biases, and writes the 512 × 1024 block of the result at those rows and columns; so its
  write-back is block `t` of ONE array whose entry `(a, n)` is `∑ₖ X (a, k) · W (n, k) + β (0, n)`. The 64 blocks tile
  the 8192 × 4096 result, so after the pipeline the array holds that product whatever it held before.
-/
import proofs.«424667_j22170621182416_3_alg».proof.Proof.Gen.KernelIdeal.Frame
import proofs.«424667_j22170621182416_3_alg».proof.Proof.MatmulBlock
import Idealize.ShloMosaic.Lib.Pipeline.Value

set_option maxRecDepth 16384

noncomputable section

open scoped BigOperators

namespace Cert.KernelIdeal.MatmulRegion

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The three arrays the pipeline reads, as it finds them: the activations, the weight matrix, the bias row. -/
abbrev acts (c : Dev nD) : S8192x4096.Idx → EReal := V c main_v16
abbrev wts (c : Dev nD) : S4096x4096.Idx → EReal := V c main_v17
abbrev brow (c : Dev nD) : S1x4096.Idx → EReal := V c main_v12

/-- Entry `(a, n)` of the product of the activations `X` with the transposed weights `W`, plus the bias row `β`. -/
def entry (X : S8192x4096.Idx → EReal) (W : S4096x4096.Idx → EReal) (β : S1x4096.Idx → EReal) (a : Fin 8192) (n : Fin 4096) : EReal :=
  (∑ k : Fin 4096, X (ix2 a k) * W (ix2 n k)) + β (ix2 (0 : Fin 1) n)

/-- The product. -/
def product (X : S8192x4096.Idx → EReal) (W : S4096x4096.Idx → EReal) (β : S1x4096.Idx → EReal) : S8192x4096.Idx → EReal :=
  fun i => entry X W β (i 0) (i 1)

/-- The windows' block indices at point `t`: the activations and the result's rows move with `t mod 16`, the weights,
    the biases and the result's columns with `t / 16`. -/
theorem idx_facts : ∀ t : Fin cfg1.N,
    win1_0.index t (0 : Fin 2) = t.val % 16 ∧ win1_0.index t (1 : Fin 2) = 0
    ∧ win1_1.index t (0 : Fin 2) = t.val / 16 ∧ win1_1.index t (1 : Fin 2) = 0
    ∧ win1_2.index t (0 : Fin 2) = 0 ∧ win1_2.index t (1 : Fin 2) = t.val / 16
    ∧ win1_3.index t (0 : Fin 2) = t.val % 16 ∧ win1_3.index t (1 : Fin 2) = t.val / 16 :=
  (by decide +kernel : ∀ t : Fin grid1.N, _)

theorem lt64 (t : Fin cfg1.N) : t.val < 64 := Nat.lt_of_lt_of_eq t.isLt N_1

/-- Row `p` of point `t`'s activation and result blocks is row `512 (t mod 16) + p` of the arrays. -/
def arow (t : Fin cfg1.N) (p : Fin 512) : Fin 8192 := ⟨t.val % 16 * 512 + p.val, by have := p.isLt; omega⟩
/-- Row `q` of its weight block, and column `q` of its bias and result blocks, is `1024 (t / 16) + q`. -/
def ncol (t : Fin cfg1.N) (q : Fin 1024) : Fin 4096 := ⟨t.val / 16 * 1024 + q.val, by have := lt64 t; have := q.isLt; omega⟩

/-- The activations' block at point `t`. -/
theorem acts_at (c : Dev nD) (t : Fin cfg1.N) (p : Fin 512) (k : Fin 4096) :
    (iblk1 V c 0 t : Vec Ideal S512x4096 .bf16) (ix2 p k) = acts V c (ix2 (arow t p) k) := by
  obtain ⟨e0, e1, -⟩ := idx_facts t
  unfold iblk1
  rw [View.read_apply]
  show V c main_v16 _ = V c main_v16 _
  congr 1
  funext a
  apply Fin.ext
  match a with
  | ⟨0, _⟩ => show win1_0.index t (0 : Fin 2) * 512 + 1 * p.val = t.val % 16 * 512 + p.val; rw [e0]; omega
  | ⟨1, _⟩ => show win1_0.index t (1 : Fin 2) * 4096 + 1 * k.val = k.val; rw [e1]; omega

/-- The weights' block at point `t`. -/
theorem wts_at (c : Dev nD) (t : Fin cfg1.N) (q : Fin 1024) (k : Fin 4096) :
    (iblk1 V c 1 t : Vec Ideal S1024x4096 .bf16) (ix2 q k) = wts V c (ix2 (ncol t q) k) := by
  obtain ⟨-, -, e0, e1, -⟩ := idx_facts t
  unfold iblk1
  rw [View.read_apply]
  show V c main_v17 _ = V c main_v17 _
  congr 1
  funext a
  apply Fin.ext
  match a with
  | ⟨0, _⟩ => show win1_1.index t (0 : Fin 2) * 1024 + 1 * q.val = t.val / 16 * 1024 + q.val; rw [e0]; omega
  | ⟨1, _⟩ => show win1_1.index t (1 : Fin 2) * 4096 + 1 * k.val = k.val; rw [e1]; omega

/-- The biases' block at point `t`. -/
theorem bias_at (c : Dev nD) (t : Fin cfg1.N) (q : Fin 1024) :
    (iblk1 V c 2 t : Vec Ideal S1x1024 .f32) (ix2 (0 : Fin 1) q) = brow V c (ix2 (0 : Fin 1) (ncol t q)) := by
  obtain ⟨-, -, -, -, e0, e1, -⟩ := idx_facts t
  unfold iblk1
  rw [View.read_apply]
  show V c main_v12 _ = V c main_v12 _
  congr 1
  funext a
  apply Fin.ext
  match a with
  | ⟨0, _⟩ => show win1_2.index t (0 : Fin 2) * 1 + 1 * 0 = 0; rw [e0]
  | ⟨1, _⟩ => show win1_2.index t (1 : Fin 2) * 1024 + 1 * q.val = t.val / 16 * 1024 + q.val; rw [e1]; omega

/-- Where the result's block at point `t` lies in the array. -/
theorem out_at (t : Fin cfg1.N) (p : Fin 512) (q : Fin 1024) :
    ((cfg1.win 3).blk t).view.emb (ix2 p q) = (ix2 (arow t p) (ncol t q) : S8192x4096.Idx) := by
  obtain ⟨-, -, -, -, -, -, e0, e1⟩ := idx_facts t
  funext a
  apply Fin.ext
  match a with
  | ⟨0, _⟩ => show win1_3.index t (0 : Fin 2) * 512 + 1 * p.val = t.val % 16 * 512 + p.val; rw [e0]; omega
  | ⟨1, _⟩ => show win1_3.index t (1 : Fin 2) * 1024 + 1 * q.val = t.val / 16 * 1024 + q.val; rw [e1]; omega

/-- WHAT POINT `t` WRITES BACK is block `t` of the product of the arrays as the pipeline finds them. -/
theorem flushed_eq (c : Dev nD) (t : Fin cfg1.N) :
    (dat1 V c).flushed 3 t = ((cfg1.win 3).blk t).view.read (Elt Ideal) (product (acts V c) (wts V c) (brow V c)) := by
  show (cfg1.win 3).cut (grid1.coords t) ((dat1 V c).after 3 t) = _
  rw [after1_3]
  unfold out1_3
  rw [View.canon_unit_zero hz2]
  simp only [View.ld_unit_zero (S := S512x4096) hz2, View.ld_unit_zero (S := S1024x4096) hz2, View.ld_unit_zero (S := S1x1024) hz2]
  funext j
  obtain ⟨p, q, rfl⟩ : ∃ (p : Fin 512) (q : Fin 1024), j = ix2 p q := ⟨j 0, j 1, eq_ix2 j⟩
  rw [View.read_apply, out_at]
  refine (MatmulBlock.pay_apply (iblk1 V c 0 t) (iblk1 V c 1 t) (iblk1 V c 2 t) p q).trans ?_
  show _ = (∑ k : Fin 4096, acts V c (ix2 (arow t p) k) * wts V c (ix2 (ncol t q) k))
    + brow V c (ix2 (0 : Fin 1) (ncol t q))
  rw [bias_at V c t q]
  refine congrArg (· + brow V c (ix2 (0 : Fin 1) (ncol t q))) (Finset.sum_congr rfl fun k _ => ?_)
  rw [acts_at V c t p k, wts_at V c t q k]

/-- An index of the array is in point `t`'s block iff each coordinate is in the block's range on its axis. -/
theorem mem_blk (t : Fin cfg1.N) (i : S8192x4096.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v18).slice (win1_3.rect t)).set ↔ _
  rw [View.set_slice_whole, Rect.mem_set_unit]
  exact Iff.rfl

/-- Every entry of the array lies in the block of the point that takes its rows and its columns. -/
theorem cover (i : S8192x4096.Idx) : ∃ t : Fin cfg1.N, (cfg1.win 3).flush t = true ∧ i ∈ ((cfg1.win 3).blk t).view.set := by
  have h0 : (i 0).val < 8192 := (i 0).isLt
  have h1 : (i 1).val < 4096 := (i 1).isLt
  let t : Fin cfg1.N := ⟨(i 1).val / 1024 * 16 + (i 0).val / 512, by rw [show cfg1.N = 64 from N_1]; omega⟩
  have ht : t.val = (i 1).val / 1024 * 16 + (i 0).val / 512 := rfl
  obtain ⟨-, -, -, -, -, -, e0, e1⟩ := idx_facts t
  refine ⟨t, flush1_3 t, ?_⟩
  rw [mem_blk]
  intro a
  match a with
  | ⟨0, _⟩ => show win1_3.index t (0 : Fin 2) * 512 ≤ (i 0).val ∧ (i 0).val < win1_3.index t (0 : Fin 2) * 512 + 512; rw [e0, ht]; omega
  | ⟨1, _⟩ => show win1_3.index t (1 : Fin 2) * 1024 ≤ (i 1).val ∧ (i 1).val < win1_3.index t (1 : Fin 2) * 1024 + 1024; rw [e1, ht]; omega

/-- THE ARRAY after the second pipeline: the product of the arrays it was entered with. -/
theorem final (c : Dev nD) :
    (dat1 V c).arrAt 3 cfg1.N = product (acts V c) (wts V c) (brow V c) :=
  (dat1 V c).arrAt_eq_of_cover 3 (product (acts V c) (wts V c) (brow V c)) (fun t _ => flushed_eq V c t) cover

end Cert.KernelIdeal.MatmulRegion

end
-- ==== Proof.Unpack.lean ====
/-
  Unpacking 4-bit fields, read at an index.

  Both programs unpack a word array the same way: the low fields `w & 15` and the high fields `(w >> 4) & 15` are each
  given a new last axis of size one and joined along it, so the joined array at `(…, h)` is field `h` of the word at
  `(…)`. The shift is by four, below the word's width, so it is the plain arithmetic shift on every unit.
-/
import proofs.«424667_j22170621182416_3_alg».proof.Proof.Spec
import Idealize.ShloMosaic.Lib.ValueIdx
import Idealize.ShloMosaic.Lib.Pipeline.Value

noncomputable section

namespace Cert.QuantLinear

open Idealize.ShloMosaic Idealize.ShloMosaic.ValueIdx

abbrev S0 : Shape := ⟨0, ![]⟩
abbrev SZc : Shape := ⟨2, ![65536, 1]⟩
abbrev SZ2 : Shape := ⟨2, ![65536, 2]⟩
abbrev SQc : Shape := ⟨4, ![4096, 32, 64, 1]⟩
abbrev SQ2 : Shape := ⟨4, ![4096, 32, 64, 2]⟩

/-- A scalar constant spread over an array reads the constant everywhere. -/
theorem splat_at {t : Shape} (hb : S0.BroadcastsInDim t (![] : Fin 0 → Fin t.rank)) (v : BitVec 32) (i : t.Idx) :
    broadcastInDim t ![] hb (constantI S0 32 v) i = v :=
  broadcastInDim_apply _ hb (constantI S0 32 v) i (fun a => a.elim0) (fun a => a.elim0)

/-- A flat word array given a unit last axis reads, at `(w, 0)`, word `w`. -/
theorem zcol_at (v : IVec SZ 32) (hb : SZ.BroadcastsInDim SZc (![0] : Fin 1 → Fin SZc.rank)) (w : Fin 65536) :
    broadcastInDim SZc ![0] hb v (ix2 w (0 : Fin 1)) = v (ix1 w) :=
  broadcastInDim_apply _ hb v (ix2 w (0 : Fin 1)) (ix1 w) (fun a => match a with
    | ⟨0, _⟩ => by show w.val = if (65536 : Nat) = 1 then 0 else w.val; rw [if_neg (by decide)])

/-- THE ZERO POINTS UNPACKED: entry `(w, h)` of the joined array is field `h` of word `w`. -/
theorem zeros_unpack_at (qz : IVec SZ 32) (hb0 : S0.BroadcastsInDim SZ (![] : Fin 0 → Fin SZ.rank))
    (hb1 : SZ.BroadcastsInDim SZc (![0] : Fin 1 → Fin SZc.rank)) (hc : Shape.Concatenates [SZc, SZc] SZ2 1)
    (w : Fin 65536) (h : Fin 2) :
    concatenate SZ2 1
      [⟨SZc, broadcastInDim SZc ![0] hb1 (andi qz (broadcastInDim SZ ![] hb0 (constantI S0 32 15#32)))⟩,
       ⟨SZc, broadcastInDim SZc ![0] hb1 (andi (Host.shrsi qz (broadcastInDim SZ ![] hb0 (constantI S0 32 4#32)))
          (broadcastInDim SZ ![] hb0 (constantI S0 32 15#32)))⟩] hc (ix2 w h)
      = nib h.val (qz (ix1 w)) := by
  match h with
  | ⟨0, _⟩ =>
    rw [concatenate_pair_apply_left (t := SZ2) (s₁ := SZc) (s₂ := SZc) (1 : Fin 2) _ _ hc (ix2 w (⟨0, by decide⟩ : Fin 2)) rfl (ix2 w (0 : Fin 1))
      (fun d => match d with | ⟨0, _⟩ => rfl | ⟨1, _⟩ => rfl)]
    rw [zcol_at]
    show IntOp.andi (qz (ix1 w)) (broadcastInDim SZ ![] hb0 (constantI S0 32 15#32) (ix1 w)) = _
    rw [splat_at]
    rfl
  | ⟨1, _⟩ =>
    rw [concatenate_pair_apply_right (t := SZ2) (s₁ := SZc) (s₂ := SZc) (1 : Fin 2) _ _ hc (ix2 w (⟨1, by decide⟩ : Fin 2)) rfl rfl (ix2 w (0 : Fin 1))
      (fun d => match d with | ⟨0, _⟩ => fun _ => rfl | ⟨1, _⟩ => fun e => absurd rfl e) rfl]
    rw [zcol_at]
    show IntOp.andi (IntOp.shrsi .host (qz (ix1 w)) (broadcastInDim SZ ![] hb0 (constantI S0 32 4#32) (ix1 w)))
      (broadcastInDim SZ ![] hb0 (constantI S0 32 15#32) (ix1 w)) = _
    rw [splat_at, splat_at, shrsi_four]
    rfl

/-- The packed weights given a unit last axis read, at `(n, r, b, 0)`, word `(n, r, b)`. -/
theorem qcol_at (v : IVec SQ 32) (hb : SQ.BroadcastsInDim SQc (![0, 1, 2] : Fin 3 → Fin SQc.rank)) (n : Fin 4096) (r : Fin 32) (b : Fin 64) :
    broadcastInDim SQc ![0, 1, 2] hb v (ix4 n r b (0 : Fin 1)) = v (ix3 n r b) :=
  broadcastInDim_apply _ hb v (ix4 n r b (0 : Fin 1)) (ix3 n r b) (fun a => match a with
    | ⟨0, _⟩ => by show n.val = if (4096 : Nat) = 1 then 0 else n.val; rw [if_neg (by decide)]
    | ⟨1, _⟩ => by show r.val = if (32 : Nat) = 1 then 0 else r.val; rw [if_neg (by decide)]
    | ⟨2, _⟩ => by show b.val = if (64 : Nat) = 1 then 0 else b.val; rw [if_neg (by decide)])

/-- THE WEIGHTS UNPACKED: entry `(n, r, b, h)` of the joined array is field `h` of word `(n, r, b)`. -/
theorem words_unpack_at (qw : IVec SQ 32) (hb0 : S0.BroadcastsInDim SQ (![] : Fin 0 → Fin SQ.rank))
    (hb1 : SQ.BroadcastsInDim SQc (![0, 1, 2] : Fin 3 → Fin SQc.rank)) (hc : Shape.Concatenates [SQc, SQc] SQ2 3)
    (n : Fin 4096) (r : Fin 32) (b : Fin 64) (h : Fin 2) :
    concatenate SQ2 3
      [⟨SQc, broadcastInDim SQc ![0, 1, 2] hb1 (andi qw (broadcastInDim SQ ![] hb0 (constantI S0 32 15#32)))⟩,
       ⟨SQc, broadcastInDim SQc ![0, 1, 2] hb1 (andi (Host.shrsi qw (broadcastInDim SQ ![] hb0 (constantI S0 32 4#32)))
          (broadcastInDim SQ ![] hb0 (constantI S0 32 15#32)))⟩] hc (ix4 n r b h)
      = nib h.val (qw (ix3 n r b)) := by
  match h with
  | ⟨0, _⟩ =>
    rw [concatenate_pair_apply_left (t := SQ2) (s₁ := SQc) (s₂ := SQc) (3 : Fin 4) _ _ hc (ix4 n r b (⟨0, by decide⟩ : Fin 2)) rfl (ix4 n r b (0 : Fin 1))
      (fun d => match d with | ⟨0, _⟩ => rfl | ⟨1, _⟩ => rfl | ⟨2, _⟩ => rfl | ⟨3, _⟩ => rfl)]
    rw [qcol_at]
    show IntOp.andi (qw (ix3 n r b)) (broadcastInDim SQ ![] hb0 (constantI S0 32 15#32) (ix3 n r b)) = _
    rw [splat_at]
    rfl
  | ⟨1, _⟩ =>
    rw [concatenate_pair_apply_right (t := SQ2) (s₁ := SQc) (s₂ := SQc) (3 : Fin 4) _ _ hc (ix4 n r b (⟨1, by decide⟩ : Fin 2)) rfl rfl (ix4 n r b (0 : Fin 1))
      (fun d => match d with | ⟨0, _⟩ => fun _ => rfl | ⟨1, _⟩ => fun _ => rfl | ⟨2, _⟩ => fun _ => rfl | ⟨3, _⟩ => fun e => absurd rfl e) rfl]
    rw [qcol_at]
    show IntOp.andi (IntOp.shrsi .host (qw (ix3 n r b)) (broadcastInDim SQ ![] hb0 (constantI S0 32 4#32) (ix3 n r b)))
      (broadcastInDim SQ ![] hb0 (constantI S0 32 15#32) (ix3 n r b)) = _
    rw [splat_at, splat_at, shrsi_four]
    rfl

end Cert.QuantLinear

end
-- ==== Proof.HostGlue.lean ====
/-
  What the two pipelines find in the arrays the program prepares for them, as terms of the five arguments.

  Before the first pipeline the program reshapes the scales to one per row and group, unpacks the zero points and
  converts them to floats, reshapes the bias to a row, and lays the activations out for the product: each row of
  4096 columns is viewed as 32 groups of 64 pairs, the pair axis is moved in front of the 64, and the row is
  flattened again — so column `k` of the new row is column `σ k` of the old one (each group's even columns first) —
  and narrowed to a 16-bit format, which changes nothing on the extended reals. The packed weights are passed as they are.
-/
import proofs.«424667_j22170621182416_3_alg».proof.Proof.Gen.KernelIdeal.Frame
import proofs.«424667_j22170621182416_3_alg».proof.Proof.Unpack
import Idealize.ShloMosaic.Lib.StableHlo.Run
import Idealize.ShloMosaic.Lib.Pipeline.Value
import Idealize.ShloMosaic.Lib.ValueIdx

set_option maxRecDepth 16384

noncomputable section

namespace Cert.KernelIdeal.HostGlue

open Cert.KernelIdeal Cert.KernelIdeal.Gen Idealize.ShloMosaic Idealize.ShloMosaic.TcCoe Idealize.ShloMosaic.ValueIdx
open Idealize.SL.Sem Idealize.ShloMosaic.StableHlo Cert.QuantLinear

variable (m : (ℓ : Loc nD τ sig) → Buf (Elt Ideal) ℓ) (ρ : Dev nD → PrngReg)

/-- The five arguments as launched: activations, packed weights, scales, packed zero points, bias. -/
abbrev xs (c : Dev nD) : SX.Idx → EReal := m ((c : Thread nD τ).loc main_arg0)
abbrev qws (c : Dev nD) : SQ.Idx → BitVec 32 := m ((c : Thread nD τ).loc main_arg1)
abbrev scs (c : Dev nD) : SS.Idx → EReal := m ((c : Thread nD τ).loc main_arg2)
abbrev qzs (c : Dev nD) : SZ.Idx → BitVec 32 := m ((c : Thread nD τ).loc main_arg3)
abbrev bs (c : Dev nD) : SB.Idx → EReal := m ((c : Thread nD τ).loc main_arg4)

/-- The packed weights reach the first pipeline as launched. -/
theorem words_eq (c : Dev nD) : (V1 m ρ c main_arg1 : S4096x32x64.Idx → BitVec 32) = qws m c := by
  show StableHlo.after hostOps0 (W0 m ρ c) (Proc.devRef .tc main_arg1) = _
  after_results

/-- The scale of row `n`, group `r`. -/
theorem scales_at (c : Dev nD) (n : Fin 4096) (r : Fin 32) :
    (V1 m ρ c main_v0 : S4096x32.Idx → EReal) (ix2 n r) = scl (scs m c) n r := by
  show StableHlo.after hostOps0 (W0 m ρ c) (Proc.devRef .tc main_v0) (ix2 n r) = _
  after_results
  exact shapeCast_apply _ Facts₀.shapeCasts_S131072_S4096x32 (ix2 n r)
    (ix1 (⟨n.val * 32 + r.val, by have := n.isLt; have := r.isLt; omega⟩ : Fin 131072))
    (by rewrite [Shape.rowMajor_val_one, Shape.rowMajor_val_two]; rfl)

/-- The zero point of row `n`, group `r`. -/
theorem zeros_at (c : Dev nD) (n : Fin 4096) (r : Fin 32) :
    (V1 m ρ c main_v11 : S4096x32.Idx → EReal) (ix2 n r) = zp (qzs m c) n r := by
  show StableHlo.after hostOps0 (W0 m ρ c) (Proc.devRef .tc main_v11) (ix2 n r) = _
  after_results
  exact congrArg toE ((shapeCast_apply _ Facts₀.shapeCasts_S65536x2_S4096x32 (ix2 n r)
    (ix2 (⟨(n.val * 32 + r.val) / 2, by have := n.isLt; have := r.isLt; omega⟩ : Fin 65536) (⟨(n.val * 32 + r.val) % 2, Nat.mod_lt _ (by decide)⟩ : Fin 2))
    (by rewrite [Shape.rowMajor_val_two, Shape.rowMajor_val_two]
        show (n.val * 32 + r.val) / 2 * 2 + (n.val * 32 + r.val) % 2 = n.val * 32 + r.val; omega)).trans
    (zeros_unpack_at _ _ _ _ _ _))

/-- The bias of output column `n`. -/
theorem bias_at (c : Dev nD) (n : Fin 4096) :
    (V1 m ρ c main_v12 : S1x4096.Idx → EReal) (ix2 (0 : Fin 1) n) = bs m c (ix1 n) := by
  show StableHlo.after hostOps0 (W0 m ρ c) (Proc.devRef .tc main_v12) (ix2 (0 : Fin 1) n) = _
  after_results
  exact shapeCast_apply _ Facts₀.shapeCasts_S4096_S1x4096 (ix2 (0 : Fin 1) n) (ix1 n)
    (by rewrite [Shape.rowMajor_val_one, Shape.rowMajor_val_two]; show n.val = 0 * 4096 + n.val; omega)

/-- Row `a` of the flattened activations is row `a mod 2048` of batch `a / 2048`. -/
def batch (a : Fin 8192) : Fin 4 := ⟨a.val / 2048, by have := a.isLt; omega⟩
def pos (a : Fin 8192) : Fin 2048 := ⟨a.val % 2048, Nat.mod_lt _ (by decide)⟩

/-- The activations as the product reads them: column `k` of row `a` is column `σ k` of the launched row. -/
theorem acts_at (c : Dev nD) (a : Fin 8192) (k : Fin 4096) :
    (V1 m ρ c main_v16 : S8192x4096.Idx → EReal) (ix2 a k) = xs m c (ix3 (batch a) (pos a) (sigma k)) := by
  have ha := a.isLt
  show StableHlo.after hostOps0 (W0 m ρ c) (Proc.devRef .tc main_v16) (ix2 a k) = _
  after_results
  rw [truncf_apply]
  exact (shapeCast_apply _ Facts₀.shapeCasts_S8192x32x2x64_S8192x4096 (ix2 a k) (ix4 a (grp k) (fld k) (wrd k))
    (by rewrite [Shape.rowMajor_val_four, Shape.rowMajor_val_two]
        show ((a.val * 32 + (grp k).val) * 2 + (fld k).val) * 64 + (wrd k).val = a.val * 4096 + k.val
        have := col_recompose k; omega)).trans
    ((transpose_apply [0, 1, 3, 2] _ Facts₀.transposes_S8192x32x64x2_S8192x32x2x64_0_1_3_2 (ix4 a (grp k) (fld k) (wrd k)) (ix4 a (grp k) (wrd k) (fld k))
      (fun d => match d with | ⟨0, _⟩ => rfl | ⟨1, _⟩ => rfl | ⟨2, _⟩ => rfl | ⟨3, _⟩ => rfl)).trans
    (shapeCast_apply _ Facts₀.shapeCasts_S4x2048x4096_S8192x32x64x2 (ix4 a (grp k) (wrd k) (fld k)) (ix3 (batch a) (pos a) (sigma k))
      (by rewrite [Shape.rowMajor_val_three, Shape.rowMajor_val_four]
          show (a.val / 2048 * 2048 + a.val % 2048) * 4096 + (sigma k).val = ((a.val * 32 + (grp k).val) * 64 + (wrd k).val) * 2 + (fld k).val
          rw [sigma_parts]; omega)))

end Cert.KernelIdeal.HostGlue

end
-- ==== Proof.KernelValue.lean ====
/-
  The kernel program's result array is the layer of its five arguments.

  The second pipeline finds the activations and the bias row as the program prepared them (the first pipeline does
  not touch them) and the weight matrix as the first pipeline left it. Entry `(a, n)` of its product is therefore
  `∑ₖ x (a / 2048, a mod 2048, σ k) · W (n, σ k) + bias n` — the layer's sum with each group's even columns listed
  first — which is the layer's own sum, since a sum does not depend on the order of its terms. The closing reshape
  reads row `2048 β + τ` of the product at `(β, τ)`.
-/
import proofs.«424667_j22170621182416_3_alg».proof.Proof.KernelRun
import proofs.«424667_j22170621182416_3_alg».proof.Proof.DequantRegion
import proofs.«424667_j22170621182416_3_alg».proof.Proof.MatmulRegion
import proofs.«424667_j22170621182416_3_alg».proof.Proof.HostGlue

set_option maxRecDepth 16384

noncomputable section

open scoped BigOperators

namespace Cert.KernelIdeal.KernelValue

open Cert.KernelIdeal Cert.KernelIdeal.Gen Idealize.ShloMosaic Idealize.ShloMosaic.TcCoe Idealize.ShloMosaic.ValueIdx
open Idealize.SL.Sem Idealize.ShloMosaic.StableHlo Cert.QuantLinear Cert.KernelIdeal.HostGlue

variable (m : (ℓ : Loc nD τ sig) → Buf (Elt Ideal) ℓ) (ρ : Dev nD → PrngReg)

/-- The first pipeline leaves the prepared activations and bias row as they were … -/
theorem acts_kept (c : Dev nD) : V2 m ρ c main_v16 = V1 m ρ c main_v16 := W2_of_ne m ρ c main_v16 (by decide)
theorem brow_kept (c : Dev nD) : V2 m ρ c main_v12 = V1 m ρ c main_v12 := W2_of_ne m ρ c main_v12 (by decide)
/-- … and its result array holding the dequantized matrix of what it was given. -/
theorem wts_made (c : Dev nD) :
    V2 m ρ c main_v17 = DequantRegion.matrix (V1 m ρ c main_arg1) (V1 m ρ c main_v0) (V1 m ρ c main_v11) :=
  (W2_arr m ρ c 3).trans (DequantRegion.final (V1 m ρ) c)

/-- The second pipeline leaves its result array holding the product of what IT was given. -/
theorem prod_made (c : Dev nD) :
    W3 m ρ c (Proc.devRef .tc main_v18)
      = MatmulRegion.product (MatmulRegion.acts (V2 m ρ) c) (MatmulRegion.wts (V2 m ρ) c) (MatmulRegion.brow (V2 m ρ) c) :=
  (W3_arr m ρ c 3).trans (MatmulRegion.final (V2 m ρ) c)

/-- ENTRY `(a, n)` OF THE PRODUCT is the layer at batch `a / 2048`, position `a mod 2048`, output column `n`. -/
theorem entry_at (c : Dev nD) (a : Fin 8192) (n : Fin 4096) :
    MatmulRegion.entry (MatmulRegion.acts (V2 m ρ) c) (MatmulRegion.wts (V2 m ρ) c) (MatmulRegion.brow (V2 m ρ) c) a n
      = outAt (xs m c) (qws m c) (scs m c) (qzs m c) (bs m c) (batch a) (pos a) n := by
  rw [outAt_evens_first]
  unfold MatmulRegion.entry
  have hb : MatmulRegion.brow (V2 m ρ) c (ix2 (0 : Fin 1) n) = bs m c (ix1 n) := by
    show V2 m ρ c main_v12 _ = _
    rw [brow_kept]
    exact bias_at m ρ c n
  rw [hb]
  refine congrArg (· + bs m c (ix1 n)) (Finset.sum_congr rfl fun k _ => ?_)
  have ha : MatmulRegion.acts (V2 m ρ) c (ix2 a k) = xs m c (ix3 (batch a) (pos a) (sigma k)) := by
    show V2 m ρ c main_v16 _ = _
    rw [acts_kept]
    exact acts_at m ρ c a k
  have hw : MatmulRegion.wts (V2 m ρ) c (ix2 n k) = kcol (qws m c) (scs m c) (qzs m c) n k := by
    show V2 m ρ c main_v17 _ = _
    rw [wts_made]
    show DequantRegion.entry (V1 m ρ c main_arg1) (V1 m ρ c main_v0) (V1 m ρ c main_v11) n k = _
    unfold DequantRegion.entry kcol wgt
    rw [words_eq, zeros_at, scales_at]
  rw [ha, hw]

/-- Row `2048 β + τ` of the flattened result. -/
def flat (β : Fin 4) (τ : Fin 2048) : Fin 8192 := ⟨β.val * 2048 + τ.val, by have := β.isLt; have := τ.isLt; omega⟩

theorem batch_flat (β : Fin 4) (τ : Fin 2048) : batch (flat β τ) = β :=
  Fin.ext (by have := τ.isLt; show (β.val * 2048 + τ.val) / 2048 = β.val; omega)
theorem pos_flat (β : Fin 4) (τ : Fin 2048) : pos (flat β τ) = τ :=
  Fin.ext (by have := τ.isLt; show (β.val * 2048 + τ.val) % 2048 = τ.val; omega)

/-- THE RESULT ARRAY at the program's last boundary is the layer of the launched arguments. -/
theorem result_eq (c : Dev nD) :
    W4 m ρ c (Proc.devRef .tc main_v19) = out (xs m c) (qws m c) (scs m c) (qzs m c) (bs m c) := by
  have e : W4 m ρ c (Proc.devRef .tc main_v19)
      = shapeCast S4x2048x4096 (W3 m ρ c (Proc.devRef .tc main_v18)) Facts₀.shapeCasts_S8192x4096_S4x2048x4096 := by
    show StableHlo.after hostOps2 (W3 m ρ c) (Proc.devRef .tc main_v19) = _
    after_results
    rfl
  rw [e, prod_made]
  funext i
  obtain ⟨β, τ, n, rfl⟩ : ∃ (β : Fin 4) (τ : Fin 2048) (n : Fin 4096), i = ix3 β τ n := ⟨i 0, i 1, i 2, eq_ix3 i⟩
  rw [shapeCast_apply _ Facts₀.shapeCasts_S8192x4096_S4x2048x4096 (ix3 β τ n) (ix2 (flat β τ) n)
    (by rewrite [Shape.rowMajor_val_two, Shape.rowMajor_val_three]; rfl)]
  show MatmulRegion.entry _ _ _ (flat β τ) n = outAt _ _ _ _ _ β τ n
  rw [entry_at, batch_flat, pos_flat]

/-- THE RUN, READ: every weakly fair execution of the kernel program terminates without a fault with its result array
    at the layer of its arguments, and the arguments unchanged. -/
theorem run : θ_run defs (onTc (τ := τ) (main (F := Ideal))) ⟨m, fun _ => 0, ρ⟩ (fun r => ∀ c : Dev nD,
      r.2.mem ((c.tc : Thread nD τ).loc main_v19) = out (xs m c) (qws m c) (scs m c) (qzs m c) (bs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (RunValue.run_main m ρ)

end Cert.KernelIdeal.KernelValue

end
-- ==== Proof.RefValue.lean ====
/-
  The reference computes the layer: its result array is `out` of its five arguments.

  Read one operation at a time: the packed weights are unpacked to 128 fields per group in the order low, high, low, high, …
  (field `h` of word `b` at place `2 b + h`), the zero points likewise to one per row and group; each field is converted,
  has its group's zero point subtracted and is multiplied by its group's scale; the 32 groups are flattened to a row of
  4096 weights; the activations are contracted with those rows over the 4096 columns and the bias is added.
-/
import proofs.«424667_j22170621182416_3_alg».proof.Proof.Gen.ReferenceIdeal.Read
import proofs.«424667_j22170621182416_3_alg».proof.Proof.Unpack

noncomputable section

open scoped BigOperators

namespace Cert.ReferenceIdeal.RefValue

open Cert.ReferenceIdeal Cert.ReferenceIdeal.Read Idealize.ShloMosaic Idealize.ShloMosaic.ValueIdx Cert.QuantLinear

variable (x : SX.Idx → EReal) (qw : SQ.Idx → BitVec 32) (sc : SS.Idx → EReal) (qz : SZ.Idx → BitVec 32) (bias : SB.Idx → EReal)

/-- Place `2 b + h` of a group. -/
def place (b : Fin 64) (h : Fin 2) : Fin 128 := ⟨2 * b.val + h.val, by have := b.isLt; have := h.isLt; omega⟩

/-- Place `2 b + h` of group `r` of row `n` of the unpacked weights is entry `(n, r, b, h)` of the joined array. -/
theorem i9 (n : Fin 4096) (r : Fin 32) (b : Fin 64) (h : Fin 2) : idx_main_v9 (ix3 n r (place b h)) = ix4 n r b h := by
  have := n.isLt; have := r.isLt; have := b.isLt; have := h.isLt
  funext a; apply Fin.ext
  match a with
  | ⟨0, _⟩ => show ((n.val * 32 + r.val) * 128 + (2 * b.val + h.val)) / 4096 = n.val; omega
  | ⟨1, _⟩ => show ((n.val * 32 + r.val) * 128 + (2 * b.val + h.val)) / 128 % 32 = r.val; omega
  | ⟨2, _⟩ => show ((n.val * 32 + r.val) * 128 + (2 * b.val + h.val)) / 2 % 64 = b.val; omega
  | ⟨3, _⟩ => show ((n.val * 32 + r.val) * 128 + (2 * b.val + h.val)) % 2 = h.val; omega

/-- A per-group value spread over the group's 128 places is read at the group. -/
theorem i23 (n : Fin 4096) (r : Fin 32) (j : Fin 128) : idx_main_v23 (ix3 n r j) = ix3 n r (0 : Fin 1) := by
  funext a; apply Fin.ext
  match a with
  | ⟨0, _⟩ => rfl
  | ⟨1, _⟩ => rfl
  | ⟨2, _⟩ => rfl
theorem i25 (n : Fin 4096) (r : Fin 32) (j : Fin 128) : idx_main_v25 (ix3 n r j) = ix3 n r (0 : Fin 1) := by
  funext a; apply Fin.ext
  match a with
  | ⟨0, _⟩ => rfl
  | ⟨1, _⟩ => rfl
  | ⟨2, _⟩ => rfl

/-- The zero point of `(n, r)` is entry `((32 n + r) / 2, (32 n + r) mod 2)` of the joined zero points. -/
theorem i19 (n : Fin 4096) (r : Fin 32) :
    idx_main_v19 (ix3 n r (0 : Fin 1)) = ix2 (⟨(n.val * 32 + r.val) / 2, by have := n.isLt; have := r.isLt; omega⟩ : Fin 65536) (⟨(n.val * 32 + r.val) % 2, Nat.mod_lt _ (by decide)⟩ : Fin 2) := by
  funext a; apply Fin.ext
  match a with
  | ⟨0, _⟩ => show ((n.val * 32 + r.val) * 1 + 0) / 2 = (n.val * 32 + r.val) / 2; omega
  | ⟨1, _⟩ => show ((n.val * 32 + r.val) * 1 + 0) % 2 = (n.val * 32 + r.val) % 2; omega

/-- The scale of `(n, r)` is entry `32 n + r` of the scales. -/
theorem i20 (n : Fin 4096) (r : Fin 32) :
    idx_main_v20 (ix3 n r (0 : Fin 1)) = ix1 (⟨n.val * 32 + r.val, by have := n.isLt; have := r.isLt; omega⟩ : Fin 131072) := by
  funext a; apply Fin.ext
  match a with
  | ⟨0, _⟩ => show (n.val * 32 + r.val) * 1 + 0 = n.val * 32 + r.val; omega

/-- THE DEQUANTIZED WEIGHT at place `2 b + h` of group `r` of row `n`. -/
theorem weight_at (n : Fin 4096) (r : Fin 32) (b : Fin 64) (h : Fin 2) :
    val_main_v26 (F := Ideal) qw sc qz (ix3 n r (place b h)) = wgt qw sc qz n r b h := by
  rw [val_main_v26_apply, val_main_v24_apply, val_main_v21_apply, val_main_v9_apply, i9,
    val_main_v23_apply, i23, val_main_v22_apply, val_main_v19_apply, i19,
    val_main_v25_apply, i25, val_main_v20_apply, i20]
  rw [show val_main_v8 (F := Ideal) qw (ix4 n r b h) = nib h.val (qw (ix3 n r b)) from
        words_unpack_at qw _ _ _ n r b h,
      show val_main_v18 (F := Ideal) qz (ix2 (⟨(n.val * 32 + r.val) / 2, by have := n.isLt; have := r.isLt; omega⟩ : Fin 65536) (⟨(n.val * 32 + r.val) % 2, Nat.mod_lt _ (by decide)⟩ : Fin 2))
          = nib ((n.val * 32 + r.val) % 2) (qz (ix1 (⟨(n.val * 32 + r.val) / 2, by have := n.isLt; have := r.isLt; omega⟩ : Fin 65536))) from
        zeros_unpack_at qz _ _ _ _ _]
  rfl

/-- Row `n`, column `k` of the flattened weights. -/
theorem i27 (n k : Fin 4096) :
    idx_main_v27 (ix2 n k) = ix3 n (⟨k.val / 128, by have := k.isLt; omega⟩ : Fin 32)
      (place (⟨k.val % 128 / 2, by omega⟩ : Fin 64) (⟨k.val % 2, Nat.mod_lt _ (by decide)⟩ : Fin 2)) := by
  have := n.isLt; have := k.isLt
  funext a; apply Fin.ext
  match a with
  | ⟨0, _⟩ => show (n.val * 4096 + k.val) / 4096 = n.val; omega
  | ⟨1, _⟩ => show (n.val * 4096 + k.val) / 128 % 32 = k.val / 128; omega
  | ⟨2, _⟩ => show (n.val * 4096 + k.val) % 128 = 2 * (k.val % 128 / 2) + k.val % 2; omega

/-- THE WEIGHT MATRIX: entry `(n, k)`. -/
theorem matrix_at (n k : Fin 4096) : val_main_v27 (F := Ideal) qw sc qz (ix2 n k) = wcol qw sc qz n k := by
  rw [val_main_v27_apply, i27, weight_at]
  rfl

/-- THE RESULT at `(β, τ, n)`. -/
theorem result_at (β : Fin 4) (τ : Fin 2048) (n : Fin 4096) :
    val_main_v31 (F := Ideal) x qw sc qz bias (ix3 β τ n) = outAt x qw sc qz bias β τ n := by
  have el : ∀ k : Fin 4096, lidx_main_v28 (ix3 β τ n) k = ix3 β τ k := fun k => funext fun a => Fin.ext (by
    match a with
    | ⟨0, _⟩ => rfl
    | ⟨1, _⟩ => rfl
    | ⟨2, _⟩ => rfl)
  have er : ∀ k : Fin 4096, ridx_main_v28 (ix3 β τ n) k = ix2 n k := fun k => funext fun a => Fin.ext (by
    match a with
    | ⟨0, _⟩ => rfl
    | ⟨1, _⟩ => rfl)
  have eb : idx_main_v29 (idx_main_v30 (ix3 β τ n)) = ix1 n := funext fun a => Fin.ext (by
    match a with
    | ⟨0, _⟩ => rfl)
  rw [val_main_v31_apply, val_main_v28_apply, val_main_v30_apply, val_main_v29_apply, eb]
  simp only [el, er, matrix_at]
  rfl

/-- THE REFERENCE'S RESULT ARRAY is the layer of its arguments. -/
theorem result_eq : val_main_v31 (F := Ideal) x qw sc qz bias = out x qw sc qz bias := by
  funext i
  obtain ⟨β, τ, n, rfl⟩ : ∃ (β : Fin 4) (τ : Fin 2048) (n : Fin 4096), i = ix3 β τ n := ⟨i 0, i 1, i 2, eq_ix3 i⟩
  exact result_at x qw sc qz bias β τ n

end Cert.ReferenceIdeal.RefValue

end
-- ==== Proof.lean ====
/-
  A linear layer over 4-bit block-quantized weights: the kernel program against the plain reference.

  Both programs compute `out (β, τ, n) = ∑ₖ x (β, τ, k) · W (n, k) + bias n` over 4096 columns, where `W (n, k)` is
  a 4-bit field of the packed weights less its group's 4-bit zero point, times the group's scale (Proof/Spec.lean).
  The reference unpacks the fields in the layer's own column order and contracts once. The kernel program dequantizes
  in a first pipeline with each group's even columns before its odd ones, lists the activations' columns in the same
  order, and contracts block by block in a second pipeline; the product is the layer's sum with its terms permuted by a
  bijection of the columns, and a finite sum on the extended reals does not depend on the order of its terms — no
  finiteness of the inputs is used. The changes of float format along the way are the identity on the extended reals,
  and the two programs' right shifts by four are the same arithmetic shift.

  The kernel's run with its result named is Proof/KernelValue.lean (over Proof/KernelRun.lean, the two pipelines'
  arrays in Proof/DequantRegion.lean and Proof/MatmulRegion.lean, the prepared arrays in Proof/HostGlue.lean); the
  reference's result is Proof/RefValue.lean. The three frames are the generated ones; the idealization rewrote
  nothing, so `preserves` is trivial.
-/
import proofs.«424667_j22170621182416_3_alg».proof.Defs
import proofs.«424667_j22170621182416_3_alg».proof.Proof.Gen.Kernel
import proofs.«424667_j22170621182416_3_alg».proof.Proof.Gen.Kernel.Skeleton
import proofs.«424667_j22170621182416_3_alg».proof.Proof.Gen.Kernel.Launch
import proofs.«424667_j22170621182416_3_alg».proof.Proof.Gen.Kernel.Points
import proofs.«424667_j22170621182416_3_alg».proof.Proof.Gen.Kernel.Frame
import proofs.«424667_j22170621182416_3_alg».proof.Proof.Gen.KernelIdeal
import proofs.«424667_j22170621182416_3_alg».proof.Proof.Gen.KernelIdeal.Skeleton
import proofs.«424667_j22170621182416_3_alg».proof.Proof.Gen.KernelIdeal.Launch
import proofs.«424667_j22170621182416_3_alg».proof.Proof.Gen.KernelIdeal.Points
import proofs.«424667_j22170621182416_3_alg».proof.Proof.Gen.KernelIdeal.Frame
import proofs.«424667_j22170621182416_3_alg».proof.Proof.Gen.ReferenceIdeal
import proofs.«424667_j22170621182416_3_alg».proof.Proof.Gen.ReferenceIdeal.Run
import proofs.«424667_j22170621182416_3_alg».proof.Proof.Gen.ReferenceIdeal.Read
import proofs.«424667_j22170621182416_3_alg».proof.Proof.Gen.Pre_finite_inputs
import proofs.«424667_j22170621182416_3_alg».proof.Proof.KernelValue
import proofs.«424667_j22170621182416_3_alg».proof.Proof.RefValue
import Idealize.ShloMosaic.Adequacy
import Idealize.ShloMosaic.Init

noncomputable section

namespace Cert.Proof

open Idealize.ShloMosaic Idealize.SL.Sem

/-- The kernel program as printed runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- At the ideal instance, from memories agreeing on the five arguments, both programs end with their result arrays at
    the layer `Cert.QuantLinear.out` of those arguments. -/
theorem algebraic : Cert.algebraic_KernelIdeal_ReferenceIdeal := by
  intro m ρ m' ρ' _ hagree
  refine ⟨fun c => Cert.QuantLinear.out (Cert.KernelIdeal.HostGlue.xs m c) (Cert.KernelIdeal.HostGlue.qws m c)
      (Cert.KernelIdeal.HostGlue.scs m c) (Cert.KernelIdeal.HostGlue.qzs m c) (Cert.KernelIdeal.HostGlue.bs m c),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v31_eq _ _ _ _ _).trans ?_
  rw [Cert.ReferenceIdeal.RefValue.result_eq, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
